-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x640000 : Shape := ⟨2, ![2, 640000]⟩
abbrev S640000x128 : Shape := ⟨2, ![640000, 128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S256x256 .f32) (main_arg6 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_c_10 : IVec S_ 32 := constantI S_ 32 0#32
  let main_v29 : IVec S2x640000 32 := broadcastInDim S2x640000 ![] bcast_S_S2x640000 main_c_10
  let main_v30 : IVec S2x640000 1 := cmpi .sge main_arg1 main_v29
  let main_c_11 : IVec S_ 1 := constantI S_ 1 1#1
  let main_v31 : IVec S_ 1 := (fun x v => Host.reduce IntOp.andi x v reducesTo_S2x640000_S_d0_1 h_S_) main_v30 main_c_11
  let main_v32 : IVec S_ 1 := andi main_v28 main_v31
  main_v32

def fn {F : FTy → Type} [FloatOps F] (main_arg0 : FVec F S20000x256 .f32) (main_arg1 : IVec S2x640000 32) (main_arg2 : FVec F S640000x128 .f32) (main_arg3 : FVec F S128x256 .f32) (main_arg4 : FVec F S256 .f32) (main_arg5 : FVec F S256x256 .f32) (main_arg6 : FVec F S256x256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S20000x256 : Shape := ⟨2, ![20000, 256]⟩
abbrev S2x640000 : Shape := ⟨2, ![2, 640000]⟩
abbrev S640000x128 : Shape := ⟨2, ![640000, 128]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S1x256 : Shape := ⟨2, ![1, 256]⟩
abbrev S2000x256 : Shape := ⟨2, ![2000, 256]⟩
abbrev S640000x1 : Shape := ⟨2, ![640000, 1]⟩
abbrev S640000x256 : Shape := ⟨2, ![640000, 256]⟩
abbrev S4000x256 : Shape := ⟨2, ![4000, 256]⟩
abbrev S4000x128 : Shape := ⟨2, ![4000, 128]⟩

abbrev nBuf : Space → Nat
  | .hbm => 25
  | .vmem => 16
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S640000x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S20000x256, .bf16⟩
  | .hbm, ⟨12, _⟩ => ⟨S256x256, .bf16⟩
  | .hbm, ⟨13, _⟩ => ⟨S256x256, .bf16⟩
  | .hbm, ⟨14, _⟩ => ⟨S128x256, .bf16⟩
  | .hbm, ⟨15, _⟩ => ⟨S1x256, .f32⟩
  | .hbm, ⟨16, _⟩ => ⟨S20000x256, .f32⟩
  | .hbm, ⟨17, _⟩ => ⟨S20000x256, .f32⟩
  | .hbm, ⟨18, _⟩ => ⟨S640000x1, .i32⟩
  | .hbm, ⟨19, _⟩ => ⟨S640000x256, .f32⟩
  | .hbm, ⟨20, _⟩ => ⟨S640000x1, .i32⟩
  | .hbm, ⟨21, _⟩ => ⟨S640000x256, .f32⟩
  | .hbm, ⟨22, _⟩ => ⟨S640000x256, .f32⟩
  | .hbm, ⟨23, _⟩ => ⟨S640000x256, .bf16⟩
  | .hbm, ⟨24, _⟩ => ⟨S640000x256, .f32⟩
  | .local _ .vmem, ⟨0, _⟩ => ⟨S2000x256, .bf16⟩
  | .local _ .vmem, ⟨1, _⟩ => ⟨S2000x256, .bf16⟩
  | .local _ .vmem, ⟨2, _⟩ => ⟨S256x256, .bf16⟩
  | .local _ .vmem, ⟨3, _⟩ => ⟨S256x256, .bf16⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S4000x256, .bf16⟩
  | .local _ .vmem, ⟨9, _⟩ => ⟨S4000x256, .bf16⟩
  | .local _ .vmem, ⟨10, _⟩ => ⟨S4000x128, .f32⟩
  | .local _ .vmem, ⟨11, _⟩ => ⟨S4000x128, .f32⟩
  | .local _ .vmem, ⟨12, _⟩ => ⟨S128x256, .bf16⟩
  | .local _ .vmem, ⟨13, _⟩ => ⟨S1x256, .f32⟩
  | .local _ .vmem, ⟨14, _⟩ => ⟨S4000x256, .f32⟩
  | .local _ .vmem, ⟨15, _⟩ => ⟨S4000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_call0_v0 : Ref sig .tc := ⟨.hbm, 18, rfl⟩
abbrev main_v10 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S640000_S640000x1_0 : S640000.BroadcastsInDim S640000x1 (![0] : Fin 1 → Fin S640000x1.rank)
  inb_S4000x128_S4000x128_0_0 : ∀ a, (![0, 0] : Fin 2 → Nat) a + S4000x128.size a ≤ S4000x128.size a
  h_S4000x128 : 0 < S4000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  broadcasts_S1x256_S4000x256 : S1x256.Broadcasts S4000x256
  dot_S2000x256_S256x256_S2000x256_1_0_0_1_n_n_wf : DotDims.WF S2000x256 S256x256 S2000x256 [1] [0] [0] [1] [] []
  gather_S20000x256_S640000x1_S640000x256_1_0_n_n_0_1_1256_wf : GatherDims.WF S20000x256 S640000x1 S640000x256 [1] [0] [] [0] [] 1 ![1, 256]
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .bf16 = 32 ∨ (Rect.block (s := S20000x256) S2000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S20000x256.size a
  hwx0_4 : ∀ i : grid0.Coords, EltTy.bits .f32 = 32 ∨ (Rect.block (s := S20000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S640000x256.size a
  hwx1_0 : ∀ i : grid1.Coords, EltTy.bits .bf16 = 32 ∨ (Rect.block (s := S640000x256) S4000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S640000x128.size a
  hwx1_1 : ∀ i : grid1.Coords, EltTy.bits .f32 = 32 ∨ (Rect.block (s := S640000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x256.size a ≤ S640000x256.size a
  hwx1_4 : ∀ i : grid1.Coords, EltTy.bits .f32 = 32 ∨ (Rect.block (s := S640000x256) S4000x256.size (cc1_transform_4 i) (hinb1_4 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_v4) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S20000x256 : Shape := ⟨2, ![20000, 256]⟩
abbrev S2x640000 : Shape := ⟨2, ![2, 640000]⟩
abbrev S640000x128 : Shape := ⟨2, ![640000, 128]⟩
abbrev S128x256 : Shape := ⟨2, ![128, 256]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x640000, .i32⟩
  | .hbm, ⟨2, _⟩ => ⟨S640000x128, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x256, .f32⟩
  | .hbm, ⟨20, _⟩ => ⟨S640000x256, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x256, .f32⟩
  | .hbm, ⟨30, _⟩ => ⟨S640000x256, .f32⟩
  | .hbm, ⟨31, _⟩ => ⟨S640000x256, .f32⟩
  | .hbm, ⟨32, _⟩ => ⟨S1x256, .f32⟩
  | .hbm, ⟨33, _⟩ => ⟨S640000x256, .f32⟩
  | .hbm, ⟨34, _⟩ => ⟨S640000x256, .f32⟩
  | .hbm, ⟨35, _⟩ => ⟨S640000x256, .f32⟩
  | .hbm, ⟨36, _⟩ => ⟨S640000x256, .f32⟩
  | .hbm, ⟨37, _⟩ => ⟨S_, .f32⟩
  | .hbm, ⟨38, _⟩ => ⟨S640000x256, .f32⟩
  | .hbm, ⟨39, _⟩ => ⟨S640000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  gather_S20000x256_S640000x1_S640000x256_1_0_n_n_0_1_1256_wf : GatherDims.WF S20000x256 S640000x1 S640000x256 [1] [0] [] [0] [] 1 ![1, 256]
  dot_S640000x256_S256x256_S640000x256_1_0_0_1_n_n_wf : DotDims.WF S640000x256 S256x256 S640000x256 [1] [0] [0] [1] [] []
  dot_S640000x128_S128x256_S640000x256_1_0_0_1_n_n_wf : DotDims.WF S640000x128 S128x256 S640000x256 [1] [0] [0] [1] [] []

variable [Facts₀]

def gather_S20000x256_S640000x1_S640000x256_1_0_n_n_0_1_1256 : GatherDims S20000x256 S640000x1 S640000x256 where
  offsetDims := [1]
  collapsedSliceDims := [0]
  operandBatchingDims := []
  startIndicesBatchingDims := []
  startIndexMap := [0]
  indexVectorDim := 1
  sliceSizes := ![1, 256]
  wf := gather_S20000x256_S640000x1_S640000x256_1_0_n_n_0_1_1256_wf
def dot_S640000x256_S256x256_S640000x256_1_0_0_1_n_n : DotDims S640000x256 S256x256 S640000x256 where
  lhsContracting := [1]
  rhsContracting := [0]
  lhsNonContracting := [0]
  rhsNonContracting := [1]
  lhsBatch := []
  rhsBatch := []
  wf := dot_S640000x256_S256x256_S640000x256_1_0_0_1_n_n_wf
def dot_S640000x128_S128x256_S640000x256_1_0_0_1_n_n : DotDims S640000x128 S128x256 S640000x256 where
  lhsContracting := [1]
  rhsContracting := [0]
  lhsNonContracting := [0]
  rhsNonContracting := [1]
  lhsBatch := []
  rhsBatch := []
  wf := dot_S640000x128_S128x256_S640000x256_1_0_0_1_n_n_wf

class Facts : Prop extends Facts₀ where

variable [Facts]
-- ==== Proof.HostReads.lean ====
/-
  What each region of the idealized kernel's @main finds in the buffers it reads, as functions of the launch memory.

  Region 0 (the node projection) finds the node table and the two node weight matrices: the host's change of
  format before it is the identity on the extended reals.  Region 1 (the fused edge kernel) finds the edge
  attributes and the edge weight matrix as launched, the bias as a [1, 256] row, and the array g: the sum of two row
  gathers of region 0's two outputs, at the two rows of the index table.
-/
import proofs.«428744_j63496796504636_3_alg».proof.Proof.Gen.KernelIdeal.Frame
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer none of a stretch's operations writes keeps its contents across the stretch. -/
local macro "untouched" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## What region 0 finds: the node table and the two weight matrices, their change of format the identity -/

theorem V1_v4 (c : Dev nD) : (V1 m ρ c main_v4 : S20000x256.Idx → EReal) = m ((c : Thread nD τ).loc main_arg0) := by
  show StableHlo.after hostOps0 (W0 m ρ c) (Proc.devRef .tc main_v4) = _
  after_results
  rfl

theorem V1_v5 (c : Dev nD) : (V1 m ρ c main_v5 : S256x256.Idx → EReal) = m ((c : Thread nD τ).loc main_arg5) := by
  show StableHlo.after hostOps0 (W0 m ρ c) (Proc.devRef .tc main_v5) = _
  after_results
  rfl

theorem V1_v6 (c : Dev nD) : (V1 m ρ c main_v6 : S256x256.Idx → EReal) = m ((c : Thread nD τ).loc main_arg6) := by
  show StableHlo.after hostOps0 (W0 m ρ c) (Proc.devRef .tc main_v6) = _
  after_results
  rfl

/-! ## Before region 0: the two rows of the index table as vectors, the edge weights, the bias as a row -/

/-- Row r of the index table as a vector of 640000 positions. -/
def idxRow (x : S2x640000.Idx → BitVec 32) (r : Fin 2) : S640000.Idx → BitVec 32 :=
  match r with
  | 0 => shapeCast S640000 (extractStridedSlice S1x640000 ![0, 0] x slices_S2x640000_S1x640000_0_0) shapeCasts_S1x640000_S640000
  | 1 => shapeCast S640000 (extractStridedSlice S1x640000 ![1, 0] x slices_S2x640000_S1x640000_1_0) shapeCasts_S1x640000_S640000

theorem W1_v1 (c : Dev nD) : (W1 m ρ c (Proc.devRef .tc main_v1) : S640000.Idx → BitVec 32) = idxRow (m ((c : Thread nD τ).loc main_arg1)) 0 := by
  show StableHlo.after hostOps0 (W0 m ρ c) (Proc.devRef .tc main_v1) = _
  after_results
  rfl

theorem W1_v3 (c : Dev nD) : (W1 m ρ c (Proc.devRef .tc main_v3) : S640000.Idx → BitVec 32) = idxRow (m ((c : Thread nD τ).loc main_arg1)) 1 := by
  show StableHlo.after hostOps0 (W0 m ρ c) (Proc.devRef .tc main_v3) = _
  after_results
  rfl

theorem W1_v7 (c : Dev nD) : (W1 m ρ c (Proc.devRef .tc main_v7) : S128x256.Idx → EReal) = m ((c : Thread nD τ).loc main_arg3) := by
  show StableHlo.after hostOps0 (W0 m ρ c) (Proc.devRef .tc main_v7) = _
  after_results
  rfl

theorem W1_v8 (c : Dev nD) : (W1 m ρ c (Proc.devRef .tc main_v8) : S1x256.Idx → EReal) = shapeCast S1x256 (m ((c : Thread nD τ).loc main_arg4)) shapeCasts_S256_S1x256 := by
  show StableHlo.after hostOps0 (W0 m ρ c) (Proc.devRef .tc main_v8) = _
  after_results
  rfl

theorem W1_arg2 (c : Dev nD) : W1 m ρ c (Proc.devRef .tc main_arg2) = m ((c : Thread nD τ).loc main_arg2) := by
  show StableHlo.after hostOps0 (W0 m ρ c) (Proc.devRef .tc main_arg2) = _
  untouched hostOps0

/-! ## What region 1 finds -/

theorem V5_arg2 (c : Dev nD) : (V5 m ρ c main_arg2 : S640000x128.Idx → EReal) = m ((c : Thread nD τ).loc main_arg2) :=
  calc W5 m ρ c (Proc.devRef .tc main_arg2)
    _ = W4 m ρ c (Proc.devRef .tc main_arg2) := by untouched hostOps1_2
    _ = W3 m ρ c (Proc.devRef .tc main_arg2) := by untouched hostOps1_1
    _ = W2 m ρ c (Proc.devRef .tc main_arg2) := by untouched hostOps1
    _ = W1 m ρ c (Proc.devRef .tc main_arg2) := W2_of_ne m ρ c main_arg2 (by decide)
    _ = m ((c : Thread nD τ).loc main_arg2) := W1_arg2 m ρ c

theorem V5_v7 (c : Dev nD) : (V5 m ρ c main_v7 : S128x256.Idx → EReal) = m ((c : Thread nD τ).loc main_arg3) :=
  calc W5 m ρ c (Proc.devRef .tc main_v7)
    _ = W4 m ρ c (Proc.devRef .tc main_v7) := by untouched hostOps1_2
    _ = W3 m ρ c (Proc.devRef .tc main_v7) := by untouched hostOps1_1
    _ = W2 m ρ c (Proc.devRef .tc main_v7) := by untouched hostOps1
    _ = W1 m ρ c (Proc.devRef .tc main_v7) := W2_of_ne m ρ c main_v7 (by decide)
    _ = m ((c : Thread nD τ).loc main_arg3) := W1_v7 m ρ c

theorem V5_v8 (c : Dev nD) : (V5 m ρ c main_v8 : S1x256.Idx → EReal) = shapeCast S1x256 (m ((c : Thread nD τ).loc main_arg4)) shapeCasts_S256_S1x256 :=
  calc W5 m ρ c (Proc.devRef .tc main_v8)
    _ = W4 m ρ c (Proc.devRef .tc main_v8) := by untouched hostOps1_2
    _ = W3 m ρ c (Proc.devRef .tc main_v8) := by untouched hostOps1_1
    _ = W2 m ρ c (Proc.devRef .tc main_v8) := by untouched hostOps1
    _ = W1 m ρ c (Proc.devRef .tc main_v8) := W2_of_ne m ρ c main_v8 (by decide)
    _ = _ := W1_v8 m ρ c

/-- Region 0's two output arrays after its run, at their literal type. -/
abbrev projI (c : Dev nD) : S20000x256.Idx → EReal := (dat0 (V1 m ρ) c).arrAt 3 cfg0.N
abbrev projJ (c : Dev nD) : S20000x256.Idx → EReal := (dat0 (V1 m ρ) c).arrAt 4 cfg0.N

/-- The row gather of a table at a vector of positions, as the host spells it: the positions laid out as a column. -/
abbrev takeRows (x : S20000x256.Idx → EReal) (pos : S640000.Idx → BitVec 32) : S640000x256.Idx → EReal :=
  Host.gather gather_S20000x256_S640000x1_S640000x256_1_0_n_n_0_1_1256 x (broadcastInDim S640000x1 ![0] bcast_S640000_S640000x1_0 pos)

/-- One stretch at a time, from ANY contents W: what the stretch leaves in the buffer it computes. -/
theorem take0_of (W : Valuation τ sig (Elt Ideal)) :
    (StableHlo.after hostOps1 W (Proc.devRef .tc main_v10) : S640000x256.Idx → EReal)
      = takeRows (W (Proc.devRef .tc main_v9_0)) (W (Proc.devRef .tc main_v1)) := by
  after_results
  rfl

theorem take1_of (W : Valuation τ sig (Elt Ideal)) :
    (StableHlo.after hostOps1_1 W (Proc.devRef .tc main_v11) : S640000x256.Idx → EReal)
      = takeRows (W (Proc.devRef .tc main_v9_1)) (W (Proc.devRef .tc main_v3)) := by
  after_results
  rfl

/-- The two gathers' buffers read out of contents W, at their literal type. -/
abbrev gath0 (W : Valuation τ sig (Elt Ideal)) : S640000x256.Idx → EReal := W (Proc.devRef .tc main_v10)
abbrev gath1 (W : Valuation τ sig (Elt Ideal)) : S640000x256.Idx → EReal := W (Proc.devRef .tc main_v11)

theorem sum_of (W : Valuation τ sig (Elt Ideal)) :
    (StableHlo.after hostOps1_2 W (Proc.devRef .tc main_v13) : S640000x256.Idx → EReal)
      = fun i => gath0 W i + gath1 W i := by
  after_results
  rfl

/-- The first gather: rows of region 0's first output at the first row of the index table. -/
theorem W3_v10 (c : Dev nD) : (W3 m ρ c (Proc.devRef .tc main_v10) : S640000x256.Idx → EReal)
    = takeRows (projI m ρ c) (idxRow (m ((c : Thread nD τ).loc main_arg1)) 0) := by
  have e0 : (W2 m ρ c (Proc.devRef .tc main_v9_0) : S20000x256.Idx → EReal) = projI m ρ c := W2_arr m ρ c 3
  have e1 : (W2 m ρ c (Proc.devRef .tc main_v1) : S640000.Idx → BitVec 32) = idxRow (m ((c : Thread nD τ).loc main_arg1)) 0 :=
    (W2_of_ne m ρ c main_v1 (by decide)).trans (W1_v1 m ρ c)
  show StableHlo.after hostOps1 (W2 m ρ c) (Proc.devRef .tc main_v10) = _
  rw [take0_of, e0, e1]

/-- The second gather: rows of region 0's second output at the second row of the index table. -/
theorem W4_v11 (c : Dev nD) : (W4 m ρ c (Proc.devRef .tc main_v11) : S640000x256.Idx → EReal)
    = takeRows (projJ m ρ c) (idxRow (m ((c : Thread nD τ).loc main_arg1)) 1) := by
  have e0 : (W3 m ρ c (Proc.devRef .tc main_v9_1) : S20000x256.Idx → EReal) = projJ m ρ c :=
    calc W3 m ρ c (Proc.devRef .tc main_v9_1)
      _ = W2 m ρ c (Proc.devRef .tc main_v9_1) := by untouched hostOps1
      _ = _ := W2_arr m ρ c 4
  have e1 : (W3 m ρ c (Proc.devRef .tc main_v3) : S640000.Idx → BitVec 32) = idxRow (m ((c : Thread nD τ).loc main_arg1)) 1 :=
    calc W3 m ρ c (Proc.devRef .tc main_v3)
      _ = W2 m ρ c (Proc.devRef .tc main_v3) := by untouched hostOps1
      _ = W1 m ρ c (Proc.devRef .tc main_v3) := W2_of_ne m ρ c main_v3 (by decide)
      _ = _ := W1_v3 m ρ c
  show StableHlo.after hostOps1_1 (W3 m ρ c) (Proc.devRef .tc main_v11) = _
  rw [take1_of, e0, e1]

/-- The array g region 1 adds in: the sum of the two gathers (its change of format the identity). -/
theorem V5_v13 (c : Dev nD) : (V5 m ρ c main_v13 : S640000x256.Idx → EReal)
    = fun i => takeRows (projI m ρ c) (idxRow (m ((c : Thread nD τ).loc main_arg1)) 0) i
        + takeRows (projJ m ρ c) (idxRow (m ((c : Thread nD τ).loc main_arg1)) 1) i := by
  have e0 : gath0 (W4 m ρ c) = takeRows (projI m ρ c) (idxRow (m ((c : Thread nD τ).loc main_arg1)) 0) :=
    calc W4 m ρ c (Proc.devRef .tc main_v10)
      _ = W3 m ρ c (Proc.devRef .tc main_v10) := by untouched hostOps1_1
      _ = _ := W3_v10 m ρ c
  have e1 : gath1 (W4 m ρ c) = takeRows (projJ m ρ c) (idxRow (m ((c : Thread nD τ).loc main_arg1)) 1) := W4_v11 m ρ c
  show StableHlo.after hostOps1_2 (W4 m ρ c) (Proc.devRef .tc main_v13) = _
  rw [sum_of, e0, e1]

end Cert.KernelIdeal.HostReads

end
-- ==== Proof.Spec.lean ====
/-
  The mathematics of the pair-features layer, over the extended reals, with no program in sight.

  For every edge e with end nodes (i_e, j_e) and every output feature o the layer computes

      out[e, o] = max( (Σ_k ea[e,k]·W_ij[k,o] + b[o]) + ( (nf·W_i)[i_e, o] + (nf·W_j)[j_e, o] ), 0 ).

  A node id is read off the index table as a signed 32-bit word clamped into the node range, which is how a
  row gather reads a start index.  Projecting the node table once and gathering rows of the product is the
  same as gathering rows of the node table and projecting them: a row of a matrix product depends on that row
  of the left factor only.
-/
import Idealize.ShloMosaic.PureOps.Ideal
import Idealize.ShloMosaic.Lib.ValueIdx

noncomputable section

namespace Cert.PairFeat

open Idealize.ShloMosaic Idealize.ShloMosaic.ValueIdx

/-- The matrix product at an entry: (x·w)[r, o] = Σ_k x[r,k]·w[k,o], over the extended reals. -/
def mm {R K C : Nat} (x : (⟨2, ![R, K]⟩ : Shape).Idx → EReal) (w : (⟨2, ![K, C]⟩ : Shape).Idx → EReal) :
    (⟨2, ![R, C]⟩ : Shape).Idx → EReal :=
  fun i => ∑ k : Fin K, x (ix2 (⟨(i 0).val, idx2_lt0 i⟩ : Fin R) k) * w (ix2 k (⟨(i 1).val, idx2_lt1 i⟩ : Fin C))

/-- The product read at explicit coordinates. -/
theorem mm_ix2 {R K C : Nat} (x : (⟨2, ![R, K]⟩ : Shape).Idx → EReal) (w : (⟨2, ![K, C]⟩ : Shape).Idx → EReal)
    (r : Fin R) (o : Fin C) : mm x w (ix2 r o) = ∑ k : Fin K, x (ix2 r k) * w (ix2 k o) := rfl

/-- A row of the product depends only on that row of the left factor: if x' is x with its rows re-read
    through ρ, then (x'·w)[e, o] = (x·w)[ρ e, o]. -/
theorem mm_rows {R E K C : Nat} (x : (⟨2, ![R, K]⟩ : Shape).Idx → EReal) (w : (⟨2, ![K, C]⟩ : Shape).Idx → EReal)
    (ρ : Fin E → Fin R) (x' : (⟨2, ![E, K]⟩ : Shape).Idx → EReal)
    (hx' : ∀ (e : Fin E) (k : Fin K), x' (ix2 e k) = x (ix2 (ρ e) k)) (e : Fin E) (o : Fin C) :
    mm x' w (ix2 e o) = mm x w (ix2 (ρ e) o) := by
  rw [mm_ix2, mm_ix2]
  exact Finset.sum_congr rfl fun k _ => by rw [hx']

/-- The node a 32-bit entry of the index table names: the word read signed, clamped into [0, N − 1]. -/
def nodeOf (N : Nat) (hN : 0 < N) (wd : BitVec 32) : Fin N := ⟨min wd.toInt.toNat (N - 1), by omega⟩

/-- The layer's result at entry i = (e, o), as one function of the seven argument arrays. -/
def pairFeat (nf : (⟨2, ![20000, 256]⟩ : Shape).Idx → EReal) (ei : (⟨2, ![2, 640000]⟩ : Shape).Idx → BitVec 32)
    (ea : (⟨2, ![640000, 128]⟩ : Shape).Idx → EReal) (wij : (⟨2, ![128, 256]⟩ : Shape).Idx → EReal)
    (b : (⟨1, ![256]⟩ : Shape).Idx → EReal) (wi wj : (⟨2, ![256, 256]⟩ : Shape).Idx → EReal) :
    (⟨2, ![640000, 256]⟩ : Shape).Idx → EReal :=
  fun i =>
    let e : Fin 640000 := ⟨(i 0).val, idx2_lt0 i⟩
    let o : Fin 256 := ⟨(i 1).val, idx2_lt1 i⟩
    max ((mm ea wij (ix2 e o) + b (ix1 o))
          + (mm nf wi (ix2 (nodeOf 20000 (by decide) (ei (ix2 (0 : Fin 2) e))) o)
              + mm nf wj (ix2 (nodeOf 20000 (by decide) (ei (ix2 (1 : Fin 2) e))) o)))
        (Ideal.ofBits .f32 0x00000000#32)

end Cert.PairFeat

end
-- ==== Proof.NodeProj.lean ====
/-
  Region 0 of the pair-features layer: the node table projected by the two node weight matrices.

  The grid has 10 points; point t reads rows 2000·t … 2000·t + 1999 of the node table and both weight matrices
  whole, and writes rows 2000·t … 2000·t + 1999 of each of the two products.  A row of a matrix product depends
  on that row of the left factor only, so the block of rows point t writes is that block of rows of the product
  of the WHOLE table; the ten blocks tile the 20000 rows, so each output array ends as the whole product.
-/
import proofs.«428744_j63496796504636_3_alg».proof.Proof.Gen.KernelIdeal.Frame
import proofs.«428744_j63496796504636_3_alg».proof.Proof.Spec
import Idealize.ShloMosaic.Lib.Pipeline.Value
import Idealize.ShloMosaic.Lib.ValueIdx
import Idealize.ShloMosaic.PureOps.Ideal.Laws

noncomputable section

namespace Cert.KernelIdeal.NodeProj

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The product of one block of rows, entry by entry -/

/-- The left operand's row is the output's row. -/
theorem lhs_proj_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column is the summation index. -/
theorem lhs_proj_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the summation index. -/
theorem rhs_proj_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- The right operand's column is the output's column. -/
theorem rhs_proj_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The first product's payload at entry (p, o): Σ_k x[p,k]·w[k,o] (the product accumulates into zero, and the
    casts to the operands' own shapes are the identity). -/
theorem k0_pay2_ix2 (x : Vec Ideal S2000x256 .bf16) (w : Vec Ideal S256x256 .bf16) (p : Fin 2000) (o : Fin 256) :
    (k0_pay2 x w : S2000x256.Idx → EReal) (ix2 p o) = ∑ k : Fin 256, (x (ix2 p k) : EReal) * (w (ix2 k o) : EReal) := by
  unfold k0_pay2 k0_pay1
  dsimp only
  rw [shapeCast_self, shapeCast_self]
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p o) ((contrEquiv1 dot_S2000x256_S256x256_S2000x256_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S2000x256_S256x256_S2000x256_1_0_0_1_n_n.rhsIdx (ix2 p o) ((contrEquiv1 dot_S2000x256_S256x256_S2000x256_1_0_0_1_n_n 256 rfl rfl).symm k) = ix2 k o := funext fun a => Fin.ext (by
    match a with
    | ⟨0, _⟩ => exact (rhs_proj_0 _ _).trans hk
    | ⟨1, _⟩ => exact rhs_proj_1 _ _)
  rw [el, er]

/-- The second product's payload is the same product, of the other weight matrix. -/
theorem k0_pay3_ix2 (x : Vec Ideal S2000x256 .bf16) (w : Vec Ideal S256x256 .bf16) (p : Fin 2000) (o : Fin 256) :
    (k0_pay3 x w : S2000x256.Idx → EReal) (ix2 p o) = ∑ k : Fin 256, (x (ix2 p k) : EReal) * (w (ix2 k o) : EReal) :=
  k0_pay2_ix2 x w p o

/-- A ROW OF A PRODUCT DEPENDS ON THAT ROW OF THE LEFT FACTOR ONLY: entry y of the product of a block of rows x by
    w is entry i of the product of the whole table X by W, as soon as row (y 0) of the block is row (i 0) of the
    table, w is W, and the two entries are in the same column. -/
theorem block_mm (X : S20000x256.Idx → EReal) (W : S256x256.Idx → EReal)
    (x : Vec Ideal S2000x256 .bf16) (w : Vec Ideal S256x256 .bf16) (y : S2000x256.Idx) (i : S20000x256.Idx)
    (hx : ∀ k : Fin 256, (x (ix2 (⟨(y 0).val, idx2_lt0 y⟩ : Fin 2000) k) : EReal) = X (ix2 (⟨(i 0).val, idx2_lt0 i⟩ : Fin 20000) k))
    (hw : ∀ k : Fin 256, (w (ix2 k (⟨(y 1).val, idx2_lt1 y⟩ : Fin 256)) : EReal) = W (ix2 k (⟨(i 1).val, idx2_lt1 i⟩ : Fin 256))) :
    (k0_pay2 x w : S2000x256.Idx → EReal) y = Cert.PairFeat.mm X W i := by
  have ey : y = ix2 (⟨(y 0).val, idx2_lt0 y⟩ : Fin 2000) (⟨(y 1).val, idx2_lt1 y⟩ : Fin 256) := eq_ix2 y
  rw [ey, k0_pay2_ix2]
  unfold Cert.PairFeat.mm
  exact Finset.sum_congr rfl fun k _ => by rw [hx k, hw k]

/-! ## The blocks of the grid -/

/-- The zero offsets of a whole-block access, as the constant function. -/
theorem hz : (![0, 0] : Fin 2 → Nat) = fun _ => 0 := funext fun a => by fin_cases a <;> rfl

/-- The printed index maps, decided over the grid: at point t the node table's block and both outputs' blocks are
    block-row t, and each weight matrix is its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK to the first output: block-row t of the product of the whole node table by the first
    weight matrix. -/
theorem proj_i_flushed (c : Dev nD) (t : Fin cfg0.N) :
    (dat0 (F := Ideal) V c).flushed 3 t
      = ((cfg0.win 3).blk t).view.read (Elt Ideal) (Cert.PairFeat.mm (V c main_v4) (V c main_v5)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz]
  obtain ⟨e00, e01, e10, e11, e20, e21, e30, e31, e40, e41⟩ := idx_facts t
  funext j
  show (k0_pay2 (iblk0 V c 0 t) (iblk0 V c 1 t) : S2000x256.Idx → EReal) j
      = Cert.PairFeat.mm (V c main_v4) (V c main_v5) (((cfg0.win 3).blk t).view.emb j)
  refine block_mm _ _ _ _ j _ (fun k => ?_) (fun k => ?_)
  · show V c main_v4 (((cfg0.win 0).blk t).view.emb (ix2 (⟨(j 0).val, idx2_lt0 j⟩ : Fin 2000) k)) = V c main_v4 _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · show V c main_v5 (((cfg0.win 1).blk t).view.emb (ix2 k (⟨(j 1).val, idx2_lt1 j⟩ : Fin 256))) = V c main_v5 _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega

/-- WHAT POINT t WRITES BACK to the second output: block-row t of the product of the whole node table by the second
    weight matrix. -/
theorem proj_j_flushed (c : Dev nD) (t : Fin cfg0.N) :
    (dat0 (F := Ideal) V c).flushed 4 t
      = ((cfg0.win 4).blk t).view.read (Elt Ideal) (Cert.PairFeat.mm (V c main_v4) (V c main_v6)) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz]
  obtain ⟨e00, e01, e10, e11, e20, e21, e30, e31, e40, e41⟩ := idx_facts t
  funext j
  show (k0_pay3 (iblk0 V c 0 t) (iblk0 V c 2 t) : S2000x256.Idx → EReal) j
      = Cert.PairFeat.mm (V c main_v4) (V c main_v6) (((cfg0.win 4).blk t).view.emb j)
  refine block_mm _ _ _ _ j _ (fun k => ?_) (fun k => ?_)
  · show V c main_v4 (((cfg0.win 0).blk t).view.emb (ix2 (⟨(j 0).val, idx2_lt0 j⟩ : Fin 2000) k)) = V c main_v4 _
    refine congrArg _ (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 256 + 1 * k.val = k.val; omega
  · show V c main_v6 (((cfg0.win 2).blk t).view.emb (ix2 k (⟨(j 1).val, idx2_lt1 j⟩ : Fin 256))) = V c main_v6 _
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * (j 1).val = win0_4.index t (1 : Fin 2) * 256 + 1 * (j 1).val; omega

/-- An entry of the first output is in point t's block iff each coordinate is in the block's range on its axis. -/
theorem mem_blk_i (t : Fin cfg0.N) (i : S20000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v9_0).slice (win0_3.rect t)).set ↔ _
  rw [View.set_slice_whole, Rect.mem_set_unit]
  exact Iff.rfl

/-- The same for the second output. -/
theorem mem_blk_j (t : Fin cfg0.N) (i : S20000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v9_1).slice (win0_4.rect t)).set ↔ _
  rw [View.set_slice_whole, Rect.mem_set_unit]
  exact Iff.rfl

/-- The ten block-rows tile the 20000 rows: row r is in block-row r / 2000. -/
theorem cover_i (i : S20000x256.Idx) : ∃ t : Fin cfg0.N, (cfg0.win 3).flush t = true ∧ i ∈ ((cfg0.win 3).blk t).view.set := by
  have hi0 : (i 0).val < 20000 := idx2_lt0 i
  have hi1 : (i 1).val < 256 := idx2_lt1 i
  have hN : cfg0.N = 10 := N_0
  obtain ⟨t, ht⟩ : ∃ t : Fin cfg0.N, t.val = (i 0).val / 2000 := ⟨⟨(i 0).val / 2000, by rw [hN]; omega⟩, rfl⟩
  refine ⟨t, flush0_3 t, ?_⟩
  rw [mem_blk_i]
  obtain ⟨e00, e01, e10, e11, e20, e21, e30, e31, e40, e41⟩ := idx_facts t
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The same for the second output. -/
theorem cover_j (i : S20000x256.Idx) : ∃ t : Fin cfg0.N, (cfg0.win 4).flush t = true ∧ i ∈ ((cfg0.win 4).blk t).view.set := by
  have hi0 : (i 0).val < 20000 := idx2_lt0 i
  have hi1 : (i 1).val < 256 := idx2_lt1 i
  have hN : cfg0.N = 10 := N_0
  obtain ⟨t, ht⟩ : ∃ t : Fin cfg0.N, t.val = (i 0).val / 2000 := ⟨⟨(i 0).val / 2000, by rw [hN]; omega⟩, rfl⟩
  refine ⟨t, flush0_4 t, ?_⟩
  rw [mem_blk_j]
  obtain ⟨e00, e01, e10, e11, e20, e21, e30, e31, e40, e41⟩ := idx_facts t
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-! ## The two output arrays after the run -/

/-- The first output array ends as the product of the whole node table by the first weight matrix. -/
theorem proj_i_final (c : Dev nD) :
    ((dat0 (F := Ideal) V c).arrAt 3 cfg0.N : S20000x256.Idx → EReal) = Cert.PairFeat.mm (V c main_v4) (V c main_v5) :=
  (dat0 (F := Ideal) V c).arrAt_eq_of_cover 3 (Cert.PairFeat.mm (V c main_v4) (V c main_v5)) (fun t _ => proj_i_flushed V c t) cover_i

/-- The second output array ends as the product of the whole node table by the second weight matrix. -/
theorem proj_j_final (c : Dev nD) :
    ((dat0 (F := Ideal) V c).arrAt 4 cfg0.N : S20000x256.Idx → EReal) = Cert.PairFeat.mm (V c main_v4) (V c main_v6) :=
  (dat0 (F := Ideal) V c).arrAt_eq_of_cover 4 (Cert.PairFeat.mm (V c main_v4) (V c main_v6)) (fun t _ => proj_j_flushed V c t) cover_j

end Cert.KernelIdeal.NodeProj

end
-- ==== Proof.EdgeKernel.lean ====
/-
  The fused edge kernel of the pair-features layer, over the extended reals.

  For every edge e and output feature o the kernel leaves

      out[e, o] = max( (Σ_k ea[e,k]·W_ij[k,o] + b[o]) + g[e, o], 0 ),

  where g is the gathered node term. The kernel works on tiles of 4000 edges: at grid point t it reads rows
  4000·t … 4000·t + 3999 of the edge attributes and of g, the whole weight matrix and the whole bias row, and
  writes the same rows of the output. Each tile's result is read at an entry (a matrix product into the zero
  accumulator is the sum over the shared coordinate), each tile read is placed in its array, and the 160 tiles
  cover the 640000 rows, so the array after the run is that function of the arrays the region finds.
-/
import proofs.«428744_j63496796504636_3_alg».proof.Proof.Gen.KernelIdeal.Frame
import proofs.«428744_j63496796504636_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.EdgeKernel

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The tile product at an entry -/

theorem lhs_tile_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_tile_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_tile_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_tile_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A tile of 4000 rows times the weight matrix, into the zero accumulator, at an entry:
    the sum over the 128 shared coordinates. -/
theorem tile_matmul_apply (x : FVec Ideal S4000x128 .bf16) (w : FVec Ideal S128x256 .bf16) (i : S4000x256.Idx) :
    matmul dot_S4000x128_S128x256_S4000x256_1_0_0_1_n_n none x w (constant (F := Ideal) S4000x256 .f32 0x00000000#32) i
      = ∑ k : Fin 128, x (ix2 (⟨(i 0).val, idx2_lt0 i⟩ : Fin 4000) k) * w (ix2 k (⟨(i 1).val, idx2_lt1 i⟩ : Fin 256)) := by
  show FloatOps.matmul dot_S4000x128_S128x256_S4000x256_1_0_0_1_n_n none x w (constant (F := Ideal) S4000x256 .f32 0x00000000#32) i = _
  rw [Ideal.matmul_constant_zero_apply, ← Equiv.sum_comp (ValueIdx.contrEquiv1 dot_S4000x128_S128x256_S4000x256_1_0_0_1_n_n 128 rfl rfl).symm]
  refine Finset.sum_congr rfl fun k _ => ?_
  have hk := ValueIdx.contrEquiv1_symm_val dot_S4000x128_S128x256_S4000x256_1_0_0_1_n_n 128 rfl rfl k
  have el : dot_S4000x128_S128x256_S4000x256_1_0_0_1_n_n.lhsIdx i ((ValueIdx.contrEquiv1 dot_S4000x128_S128x256_S4000x256_1_0_0_1_n_n 128 rfl rfl).symm k) = ix2 (⟨(i 0).val, idx2_lt0 i⟩ : Fin 4000) k := funext fun a => Fin.ext (by
    match a with
    | ⟨0, _⟩ => exact lhs_tile_0 _ _
    | ⟨1, _⟩ => exact (lhs_tile_1 _ _).trans hk)
  have er : dot_S4000x128_S128x256_S4000x256_1_0_0_1_n_n.rhsIdx i ((ValueIdx.contrEquiv1 dot_S4000x128_S128x256_S4000x256_1_0_0_1_n_n 128 rfl rfl).symm k) = ix2 k (⟨(i 1).val, idx2_lt1 i⟩ : Fin 256) := funext fun a => Fin.ext (by
    match a with
    | ⟨0, _⟩ => exact (rhs_tile_0 _ _).trans hk
    | ⟨1, _⟩ => exact rhs_tile_1 _ _)
  rw [el, er]

/-! ## The body's result at an entry -/

/-- The body of the fused kernel at entry (p, q) of its tile: relu of (the tile of edge attributes times the weight
    matrix, plus the bias row) plus the gathered term. -/
theorem body_apply (x : FVec Ideal S4000x128 .f32) (w : FVec Ideal S128x256 .bf16) (b : FVec Ideal S1x256 .f32)
    (g : FVec Ideal S4000x256 .bf16) (p : Fin 4000) (q : Fin 256) :
    k1_pay1 (F := Ideal) x w b g (ix2 p q)
      = max (((∑ k : Fin 128, x (ix2 p k) * w (ix2 k q)) + b (ix2 (0 : Fin 1) q)) + g (ix2 p q))
          (Ideal.ofBits .f32 0x00000000#32) := by
  unfold k1_pay1
  rw [maximumf_apply, addf_apply, addf_apply, broadcast_apply, extf_apply, tile_matmul_apply,
    shapeCast_self, shapeCast_self, shapeCast_self, broadcastTo_1b_ab_apply]
  rfl

/-! ## From tiles to the array -/

/-- The arrays the region finds, as functions over the extended reals: the edge attributes, the weight matrix W_ij,
    the bias row, and the gathered node term g. -/
abbrev edgeAttr (c : Dev nD) : S640000x128.Idx → EReal := V c main_arg2
abbrev weight (c : Dev nD) : S128x256.Idx → EReal := V c main_v7
abbrev biasRow (c : Dev nD) : S1x256.Idx → EReal := V c main_v8
abbrev gathered (c : Dev nD) : S640000x256.Idx → EReal := V c main_v13

theorem zero_offsets : (![0, 0] : Fin 2 → Nat) = fun _ => 0 := funext fun a => by fin_cases a <;> rfl

/-- The five index maps over the 160 grid points: the gathered term, the edge attributes and the output move down the
    rows one tile per point; the weight matrix and the bias row stay whole. -/
theorem tile_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of tile t is row 4000·t + p of the edge arrays. -/
def tileRow (t : Fin cfg1.N) (p : Fin 4000) : Fin 640000 :=
  ⟨t.val * 4000 + p.val, by have h := t.isLt; have hN : cfg1.N = 160 := N_1; omega⟩

/-- The gathered term's tile at point t is rows 4000·t … of the array. -/
theorem gathered_tile (c : Dev nD) (t : Fin cfg1.N) (p : Fin 4000) (q : Fin 256) :
    (iblk1 V c 0 t : S4000x256.Idx → EReal) (ix2 p q) = gathered V c (ix2 (tileRow t p) q) := by
  obtain ⟨e0, e1, -⟩ := tile_indices t
  show gathered V c (((cfg1.win 0).blk t).view.emb (ix2 p q)) = _
  refine congrArg (gathered V c) (funext fun a => Fin.ext ?_)
  match a with
  | ⟨0, _⟩ => show win1_0.index t (0 : Fin 2) * 4000 + 1 * p.val = t.val * 4000 + p.val; omega
  | ⟨1, _⟩ => show win1_0.index t (1 : Fin 2) * 256 + 1 * q.val = q.val; omega

/-- The edge attributes' tile at point t is rows 4000·t … of the array. -/
theorem edge_attr_tile (c : Dev nD) (t : Fin cfg1.N) (p : Fin 4000) (k : Fin 128) :
    (iblk1 V c 1 t : S4000x128.Idx → EReal) (ix2 p k) = edgeAttr V c (ix2 (tileRow t p) k) := by
  obtain ⟨-, -, e0, e1, -⟩ := tile_indices t
  show edgeAttr V c (((cfg1.win 1).blk t).view.emb (ix2 p k)) = _
  refine congrArg (edgeAttr V c) (funext fun a => Fin.ext ?_)
  match a with
  | ⟨0, _⟩ => show win1_1.index t (0 : Fin 2) * 4000 + 1 * p.val = t.val * 4000 + p.val; omega
  | ⟨1, _⟩ => show win1_1.index t (1 : Fin 2) * 128 + 1 * k.val = k.val; omega

/-- The weight matrix is staged whole at every point. -/
theorem weight_tile (c : Dev nD) (t : Fin cfg1.N) (k : Fin 128) (q : Fin 256) :
    (iblk1 V c 2 t : S128x256.Idx → EReal) (ix2 k q) = weight V c (ix2 k q) := by
  obtain ⟨-, -, -, -, e0, e1, -⟩ := tile_indices t
  show weight V c (((cfg1.win 2).blk t).view.emb (ix2 k q)) = _
  refine congrArg (weight V c) (funext fun a => Fin.ext ?_)
  match a with
  | ⟨0, _⟩ => show win1_2.index t (0 : Fin 2) * 128 + 1 * k.val = k.val; omega
  | ⟨1, _⟩ => show win1_2.index t (1 : Fin 2) * 256 + 1 * q.val = q.val; omega

/-- The bias row is staged whole at every point. -/
theorem bias_tile (c : Dev nD) (t : Fin cfg1.N) (q : Fin 256) :
    (iblk1 V c 3 t : S1x256.Idx → EReal) (ix2 (0 : Fin 1) q) = biasRow V c (ix2 (0 : Fin 1) q) := by
  obtain ⟨-, -, -, -, -, -, e0, e1, -⟩ := tile_indices t
  show biasRow V c (((cfg1.win 3).blk t).view.emb (ix2 (0 : Fin 1) q)) = _
  refine congrArg (biasRow V c) (funext fun a => Fin.ext ?_)
  match a with
  | ⟨0, _⟩ => show win1_3.index t (0 : Fin 2) * 1 + 1 * 0 = 0; omega
  | ⟨1, _⟩ => show win1_3.index t (1 : Fin 2) * 256 + 1 * q.val = q.val; omega

/-- The output's tile at point t sits at rows 4000·t … of the array. -/
theorem out_tile_emb (t : Fin cfg1.N) (p : Fin 4000) (q : Fin 256) :
    (((cfg1.win 4).blk t).view.emb (ix2 p q) : S640000x256.Idx) = ix2 (tileRow t p) q := by
  obtain ⟨-, -, -, -, -, -, -, -, e0, e1⟩ := tile_indices t
  refine funext fun a => Fin.ext ?_
  match a with
  | ⟨0, _⟩ => show win1_4.index t (0 : Fin 2) * 4000 + 1 * p.val = t.val * 4000 + p.val; omega
  | ⟨1, _⟩ => show win1_4.index t (1 : Fin 2) * 256 + 1 * q.val = q.val; omega

/-- The edge part of the layer as one function of the arrays the region finds:
    relu of (edge_attr · W_ij + bias row) + g, entry by entry. -/
def edgeOut (c : Dev nD) : S640000x256.Idx → EReal :=
  fun i => max ((Cert.PairFeat.mm (V c main_arg2) (V c main_v7) i
                  + (V c main_v8 : S1x256.Idx → EReal) (ix2 (0 : Fin 1) (⟨(i 1).val, idx2_lt1 i⟩ : Fin 256)))
                + (V c main_v13 : S640000x256.Idx → EReal) i) (Ideal.ofBits .f32 0x00000000#32)

/-- That function at explicit coordinates. -/
theorem edgeOut_ix2 (c : Dev nD) (r : Fin 640000) (q : Fin 256) :
    edgeOut V c (ix2 r q)
      = max (((∑ k : Fin 128, edgeAttr V c (ix2 r k) * weight V c (ix2 k q)) + biasRow V c (ix2 (0 : Fin 1) q))
              + gathered V c (ix2 r q)) (Ideal.ofBits .f32 0x00000000#32) := rfl

/-- What the body leaves at entry (p, q) of the output's tile at point t is the layer's edge part at row 4000·t + p. -/
theorem written_entry (c : Dev nD) (t : Fin cfg1.N) (p : Fin 4000) (q : Fin 256) :
    k1_pay1 (F := Ideal) (iblk1 V c 1 t) (iblk1 V c 2 t) (iblk1 V c 3 t) (iblk1 V c 0 t) (ix2 p q)
      = edgeOut V c (ix2 (tileRow t p) q) := by
  refine (body_apply (iblk1 V c 1 t) (iblk1 V c 2 t) (iblk1 V c 3 t) (iblk1 V c 0 t) p q).trans ?_
  rw [edgeOut_ix2, gathered_tile V c t p q, bias_tile V c t q]
  refine congrArg (fun s => max ((s + _) + _) _) (Finset.sum_congr rfl fun k _ => ?_)
  rw [edge_attr_tile V c t p k, weight_tile V c t k q]

/-- What point t writes back is tile t of the layer's edge part. -/
theorem flushed_eq (c : Dev nD) (t : Fin cfg1.N) :
    (dat1 (F := Ideal) V c).flushed 4 t = ((cfg1.win 4).blk t).view.read (Elt Ideal) (edgeOut V c) := by
  show (cfg1.win 4).cut (grid1.coords t) ((dat1 (F := Ideal) V c).after 4 t) = _
  rw [after1_4]
  unfold out1_4
  rw [View.canon_unit_zero zero_offsets]
  simp only [View.ld_unit_zero (S := S4000x128) zero_offsets, View.ld_unit_zero (S := S128x256) zero_offsets,
    View.ld_unit_zero (S := S1x256) zero_offsets, View.ld_unit_zero (S := S4000x256) zero_offsets]
  have key : ∀ j : S4000x256.Idx,
      k1_pay1 (F := Ideal) (iblk1 V c 1 t) (iblk1 V c 2 t) (iblk1 V c 3 t) (iblk1 V c 0 t) j
        = edgeOut V c (((cfg1.win 4).blk t).view.emb j) := fun j => by
    obtain ⟨p, q, rfl⟩ : ∃ (p : Fin 4000) (q : Fin 256), j = ix2 p q := ⟨j 0, j 1, eq_ix2 j⟩
    rw [out_tile_emb t p q]
    exact written_entry V c t p q
  funext j
  exact key j

/-- An entry of the array is in point t's tile iff each coordinate is in the tile's range on its axis. -/
theorem mem_tile (t : Fin cfg1.N) (i : S640000x256.Idx) :
    i ∈ ((cfg1.win 4).blk t).view.set ↔ ∀ a : Fin 2, win1_4.index t a * S4000x256.size a ≤ (i a).val ∧ (i a).val < win1_4.index t a * S4000x256.size a + S4000x256.size a := by
  show i ∈ ((View.whole main_v14).slice (win1_4.rect t)).set ↔ _
  rw [View.set_slice_whole, Rect.mem_set_unit]
  exact Iff.rfl

/-- Every entry of the array is in the tile of the point its row names: row r is in tile r / 4000. -/
theorem tiles_cover (i : S640000x256.Idx) :
    ∃ t : Fin cfg1.N, (cfg1.win 4).flush t = true ∧ i ∈ ((cfg1.win 4).blk t).view.set := by
  have hi0 : (i 0).val < 640000 := idx2_lt0 i
  have hi1 : (i 1).val < 256 := idx2_lt1 i
  have hN : cfg1.N = 160 := N_1
  obtain ⟨t, ht⟩ : ∃ t : Fin cfg1.N, t.val = (i 0).val / 4000 := ⟨⟨(i 0).val / 4000, by omega⟩, rfl⟩
  obtain ⟨-, -, -, -, -, -, -, -, e0, e1⟩ := tile_indices t
  refine ⟨t, flush1_4 t, ?_⟩
  rw [mem_tile]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 256 ≤ (i 1).val ∧ (i 1).val < win1_4.index t (1 : Fin 2) * 256 + 256; omega

/-- The output array after the run of the fused kernel, entry by entry: relu of (edge_attr · W_ij + bias row) + g,
    over the arrays the region finds. -/
theorem edge_final (c : Dev nD) :
    ((dat1 (F := Ideal) V c).arrAt 4 cfg1.N : S640000x256.Idx → EReal)
      = fun i => max ((Cert.PairFeat.mm (V c main_arg2) (V c main_v7) i
                        + (V c main_v8 : S1x256.Idx → EReal) (ix2 (0 : Fin 1) (⟨(i 1).val, idx2_lt1 i⟩ : Fin 256)))
                      + (V c main_v13 : S640000x256.Idx → EReal) i) (Ideal.ofBits .f32 0x00000000#32) :=
  (dat1 (F := Ideal) V c).arrAt_eq_of_cover 4 (edgeOut V c) (fun t _ => flushed_eq V c t) tiles_cover

end Cert.KernelIdeal.EdgeKernel

end
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.TakeRows.lean ====
/-
  The layer's host-side layout steps read at an entry, over the literal shapes of this layer and for any witnesses
  of the shape relations: a row gather of a [20000, 256] table at a vector of 640000 positions reads, at (e, o), the
  table at (node, o), node the position's word read signed and clamped (the node it names); row r of the [2, 640000]
  index table cut out and flattened reads, at e, the table at (r, e); the bias vector as a [1, 256] row reads, at
  (0, o), the vector at o.
-/
import proofs.«428744_j63496796504636_3_alg».proof.Proof.LibGatherRows
import proofs.«428744_j63496796504636_3_alg».proof.Proof.Spec
import Idealize.ShloMosaic.Lib.Pipeline.Value

noncomputable section

namespace Cert.PairFeat

open Idealize.ShloMosaic Idealize.ShloMosaic.ValueIdx

/-- A vector of positions laid out as a column reads, at (e, 0), the vector at e. -/
theorem col_apply (hb : (⟨1, ![640000]⟩ : Shape).BroadcastsInDim ⟨2, ![640000, 1]⟩ ![0])
    (pos : (⟨1, ![640000]⟩ : Shape).Idx → BitVec 32) (e : Fin 640000) :
    broadcastInDim ⟨2, ![640000, 1]⟩ ![0] hb pos (ix2 e (0 : Fin 1)) = pos (ix1 e) :=
  broadcastInDim_apply _ hb pos _ (ix1 e) (fun a => match a with
    | ⟨0, _⟩ => by show e.val = if (640000 : Nat) = 1 then 0 else e.val; rw [if_neg (by decide)])

/-- The row gather at (e, o): the table's row of the node position e names, at o. -/
theorem take_rows_apply
    (wf : GatherDims.WF ⟨2, ![20000, 256]⟩ ⟨2, ![640000, 1]⟩ ⟨2, ![640000, 256]⟩ [1] [0] [] [0] [] 1 ![1, 256])
    (hb : (⟨1, ![640000]⟩ : Shape).BroadcastsInDim ⟨2, ![640000, 1]⟩ ![0])
    (x : (⟨2, ![20000, 256]⟩ : Shape).Idx → EReal) (pos : (⟨1, ![640000]⟩ : Shape).Idx → BitVec 32)
    (e : Fin 640000) (o : Fin 256) :
    Host.gather (Cert.Lib.rowGatherDims 20000 256 640000 wf) x (broadcastInDim ⟨2, ![640000, 1]⟩ ![0] hb pos) (ix2 e o)
      = x (ix2 (nodeOf 20000 (by decide) (pos (ix1 e))) o) := by
  rw [Cert.Lib.gather_rows_apply (by decide)]
  refine congrArg x (congrArg (fun r : Fin 20000 => ix2 r o) (Fin.ext ?_))
  show min (broadcastInDim ⟨2, ![640000, 1]⟩ ![0] hb pos (ix2 e (0 : Fin 1))).toInt.toNat (20000 - 1)
    = min (pos (ix1 e)).toInt.toNat (20000 - 1)
  rw [col_apply]

/-- Row 0 of the index table, cut out and flattened, at e. -/
theorem idx_row0_apply (hs : (⟨2, ![2, 640000]⟩ : Shape).Slices ![0, 0] ⟨2, ![1, 640000]⟩)
    (hc : (⟨2, ![1, 640000]⟩ : Shape).ShapeCasts ⟨1, ![640000]⟩)
    (x : (⟨2, ![2, 640000]⟩ : Shape).Idx → BitVec 32) (e : Fin 640000) :
    shapeCast ⟨1, ![640000]⟩ (extractStridedSlice ⟨2, ![1, 640000]⟩ ![0, 0] x hs) hc (ix1 e) = x (ix2 (0 : Fin 2) e) := by
  rw [shapeCast_apply _ hc (ix1 e) (ix2 (0 : Fin 1) e)
    (by rewrite [Shape.rowMajor_val_two, Shape.rowMajor_val_one]; show 0 * 640000 + e.val = e.val; omega)]
  exact extractStridedSlice_apply ![0, 0] x hs _ (ix2 (0 : Fin 2) e) (fun a => match a with
    | ⟨0, _⟩ => by show (0 : Nat) = 0 + 0; rfl
    | ⟨1, _⟩ => by show e.val = 0 + e.val; omega)

/-- Row 1 of the index table, cut out and flattened, at e. -/
theorem idx_row1_apply (hs : (⟨2, ![2, 640000]⟩ : Shape).Slices ![1, 0] ⟨2, ![1, 640000]⟩)
    (hc : (⟨2, ![1, 640000]⟩ : Shape).ShapeCasts ⟨1, ![640000]⟩)
    (x : (⟨2, ![2, 640000]⟩ : Shape).Idx → BitVec 32) (e : Fin 640000) :
    shapeCast ⟨1, ![640000]⟩ (extractStridedSlice ⟨2, ![1, 640000]⟩ ![1, 0] x hs) hc (ix1 e) = x (ix2 (1 : Fin 2) e) := by
  rw [shapeCast_apply _ hc (ix1 e) (ix2 (0 : Fin 1) e)
    (by rewrite [Shape.rowMajor_val_two, Shape.rowMajor_val_one]; show 0 * 640000 + e.val = e.val; omega)]
  exact extractStridedSlice_apply ![1, 0] x hs _ (ix2 (1 : Fin 2) e) (fun a => match a with
    | ⟨0, _⟩ => by show (1 : Nat) = 1 + 0; rfl
    | ⟨1, _⟩ => by show e.val = 0 + e.val; omega)

/-- The bias vector reshaped to a [1, 256] row, at (0, o). -/
theorem bias_row_apply (hc : (⟨1, ![256]⟩ : Shape).ShapeCasts ⟨2, ![1, 256]⟩)
    (b : (⟨1, ![256]⟩ : Shape).Idx → EReal) (o : Fin 256) :
    shapeCast ⟨2, ![1, 256]⟩ b hc (ix2 (0 : Fin 1) o) = b (ix1 o) :=
  shapeCast_apply b hc (ix2 (0 : Fin 1) o) (ix1 o)
    (by rewrite [Shape.rowMajor_val_two, Shape.rowMajor_val_one]; show o.val = 0 * 256 + o.val; omega)

end Cert.PairFeat

end
-- ==== Proof.KernelValue.lean ====
/-
  The idealized kernel's result array, as the layer's function of the launch memory.

  Region 1 leaves max((edge_attr·W_ij + b) + g, 0) where g is the sum of two row gathers of region 0's outputs;
  region 0's outputs are the node table times the two node weight matrices; a row gather of a product reads a row
  of the product, which is the product's sum over that node's row.  Put together, entry (e, o) is
  max((Σ_k ea[e,k]·W_ij[k,o] + b[o]) + ((nf·W_i)[i_e, o] + (nf·W_j)[j_e, o]), 0): the layer's `pairFeat`.
-/
import proofs.«428744_j63496796504636_3_alg».proof.Proof.HostReads
import proofs.«428744_j63496796504636_3_alg».proof.Proof.NodeProj
import proofs.«428744_j63496796504636_3_alg».proof.Proof.EdgeKernel
import proofs.«428744_j63496796504636_3_alg».proof.Proof.TakeRows

set_option maxRecDepth 16384

noncomputable section

namespace Cert.KernelIdeal.KernelValue

open Cert.KernelIdeal Cert.KernelIdeal.Gen Cert.KernelIdeal.HostReads
open Idealize.ShloMosaic Idealize.ShloMosaic.TcCoe Idealize.SL.Sem Idealize.ShloMosaic.ValueIdx Cert.PairFeat

variable (m : (ℓ : Loc nD τ sig) → Buf (Elt Ideal) ℓ) (ρ : Dev nD → PrngReg)

/-- The printed gather's dimension numbers are a row gather's. -/
theorem gather_is_rows : gather_S20000x256_S640000x1_S640000x256_1_0_n_n_0_1_1256
    = Cert.Lib.rowGatherDims 20000 256 640000 Facts₀.gather_S20000x256_S640000x1_S640000x256_1_0_n_n_0_1_1256_wf := rfl

/-- The launch memory's argument arrays, at their literal types. -/
abbrev aNf (c : Dev nD) : S20000x256.Idx → EReal := m ((c : Thread nD τ).loc main_arg0)
abbrev aEi (c : Dev nD) : S2x640000.Idx → BitVec 32 := m ((c : Thread nD τ).loc main_arg1)
abbrev aEa (c : Dev nD) : S640000x128.Idx → EReal := m ((c : Thread nD τ).loc main_arg2)
abbrev aWij (c : Dev nD) : S128x256.Idx → EReal := m ((c : Thread nD τ).loc main_arg3)
abbrev aB (c : Dev nD) : S256.Idx → EReal := m ((c : Thread nD τ).loc main_arg4)
abbrev aWi (c : Dev nD) : S256x256.Idx → EReal := m ((c : Thread nD τ).loc main_arg5)
abbrev aWj (c : Dev nD) : S256x256.Idx → EReal := m ((c : Thread nD τ).loc main_arg6)

/-- Region 0's first output is the node table times W_i. -/
theorem projI_eq (c : Dev nD) : projI m ρ c = mm (aNf m c) (aWi m c) := by
  show ((dat0 (F := Ideal) (V1 m ρ) c).arrAt 3 cfg0.N : S20000x256.Idx → EReal) = _
  rw [NodeProj.proj_i_final (V1 m ρ) c, V1_v4, V1_v5]

/-- Region 0's second output is the node table times W_j. -/
theorem projJ_eq (c : Dev nD) : projJ m ρ c = mm (aNf m c) (aWj m c) := by
  show ((dat0 (F := Ideal) (V1 m ρ) c).arrAt 4 cfg0.N : S20000x256.Idx → EReal) = _
  rw [NodeProj.proj_j_final (V1 m ρ) c, V1_v4, V1_v6]

/-- Row r of the index table as a vector, at e. -/
theorem idxRow0_apply (x : S2x640000.Idx → BitVec 32) (e : Fin 640000) : idxRow x 0 (ix1 e) = x (ix2 (0 : Fin 2) e) :=
  idx_row0_apply _ _ x e
theorem idxRow1_apply (x : S2x640000.Idx → BitVec 32) (e : Fin 640000) : idxRow x 1 (ix1 e) = x (ix2 (1 : Fin 2) e) :=
  idx_row1_apply _ _ x e

/-- A row gather of a product at (e, o): the product at the node position e names. -/
theorem takeRows_apply (x : S20000x256.Idx → EReal) (pos : S640000.Idx → BitVec 32) (e : Fin 640000) (o : Fin 256) :
    takeRows x pos (ix2 e o) = x (ix2 (nodeOf 20000 (by decide) (pos (ix1 e))) o) := by
  unfold takeRows
  rw [gather_is_rows, take_rows_apply]

/-- THE KERNEL'S RESULT ARRAY after the run is the layer's function of the launched arguments. -/
theorem result_eq (c : Dev nD) :
    (W6 m ρ c (Proc.devRef .tc main_v14) : S640000x256.Idx → EReal)
      = pairFeat (aNf m c) (aEi m c) (aEa m c) (aWij m c) (aB m c) (aWi m c) (aWj m c) := by
  refine ((W6_arr m ρ c 4).trans (EdgeKernel.edge_final (V5 m ρ) c)).trans ?_
  funext i
  obtain ⟨e, o, rfl⟩ : ∃ (e : Fin 640000) (o : Fin 256), i = ix2 e o := ⟨i 0, i 1, eq_ix2 i⟩
  dsimp only
  rw [V5_arg2 m ρ c, V5_v7 m ρ c, V5_v8 m ρ c, V5_v13 m ρ c]
  dsimp only
  rw [takeRows_apply, takeRows_apply, projI_eq, projJ_eq, idxRow0_apply, idxRow1_apply, bias_row_apply]
  rfl

end Cert.KernelIdeal.KernelValue

end
-- ==== Proof.RefSide.lean ====
/-
  The reference, read at an entry.  It gathers the rows of the node table the two rows of the index table name,
  projects the gathered rows by the two node weight matrices, adds both to the edge term edge_attr·W_ij + b and
  applies relu.  Before each gather it moves a negative position up by the table's length; where every position
  is nonnegative that step changes nothing, and the entry is the layer's `pairFeat`: the two projections are sums
  over the gathered row, and the three terms are added left to right, which regroups to the layer's
  (edge term) + (sum of the two node terms) by associativity of + on the extended reals.
-/
import proofs.«428744_j63496796504636_3_alg».proof.Proof.Gen.ReferenceIdeal.Run
import proofs.«428744_j63496796504636_3_alg».proof.Proof.Gen.ReferenceIdeal.Read
import proofs.«428744_j63496796504636_3_alg».proof.Proof.TakeRows
import Idealize.ShloMosaic.Lib.Affine

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.PairFeat

/-- The printed gather's dimension numbers are a row gather's. -/
theorem gather_is_rows : gather_S20000x256_S640000x1_S640000x256_1_0_n_n_0_1_1256
    = Cert.Lib.rowGatherDims 20000 256 640000 Facts₀.gather_S20000x256_S640000x1_S640000x256_1_0_n_n_0_1_1256_wf := rfl

/-- A nonnegative position is not below zero, so moving negative positions up by the table's length leaves it. -/
theorem wrap_of_nonneg (w : BitVec 32) (h : 0 ≤ w.toInt) :
    Scalar.select (IntOp.cmpi .slt w 0#32) (IntOp.addi w 20000#32) w = w := by
  have h0 : (0#32 : BitVec 32).toInt = 0 := by decide
  have hc : ¬ IntOp.cmpi .slt w 0#32 = 1#1 := fun hc => by
    have := IntOp.cmpi_slt.1 hc
    rw [h0] at this
    omega
  rw [eq_zero_of_ne_one hc, select_zero]

variable (x0 : (⟨S20000x256, .f32⟩ : BufTy).Contents (Elt Ideal)) (x1 : (⟨S2x640000, .i32⟩ : BufTy).Contents (Elt Ideal))

/-- The first vector of positions, after the wrap of negative ones, at e: the index table's (0, e). -/
theorem pos0_apply (hnn : ∀ i, 0 ≤ (x1 i).toInt) (e : Fin 640000) :
    val_main_v8 (F := Ideal) x1 (ix1 e) = x1 (ix2 (0 : Fin 2) e) := by
  have hv1 : val_main_v1 (F := Ideal) x1 (ix1 e) = x1 (ix2 (0 : Fin 2) e) := by
    unfold val_main_v1 val_main_v0
    exact idx_row0_apply _ _ x1 e
  rw [val_main_v8_apply, val_main_v5_apply, val_main_v7_apply, val_main_v4_apply, val_main_c_apply, val_main_v6_apply,
    val_main_c_0_apply, hv1]
  exact wrap_of_nonneg _ (hnn _)

/-- The second vector of positions, after the wrap of negative ones, at e: the index table's (1, e). -/
theorem pos1_apply (hnn : ∀ i, 0 ≤ (x1 i).toInt) (e : Fin 640000) :
    val_main_v16 (F := Ideal) x1 (ix1 e) = x1 (ix2 (1 : Fin 2) e) := by
  have hv3 : val_main_v3 (F := Ideal) x1 (ix1 e) = x1 (ix2 (1 : Fin 2) e) := by
    unfold val_main_v3 val_main_v2
    exact idx_row1_apply _ _ x1 e
  rw [val_main_v16_apply, val_main_v13_apply, val_main_v15_apply, val_main_v12_apply, val_main_c_1_apply, val_main_v14_apply,
    val_main_c_2_apply, hv3]
  exact wrap_of_nonneg _ (hnn _)

/-- The first gathered table at (e, k): the node table's row of the node (0, e) names. -/
theorem rows0_apply (hnn : ∀ i, 0 ≤ (x1 i).toInt) (e : Fin 640000) (k : Fin 256) :
    val_main_v10 (F := Ideal) x0 x1 (ix2 e k) = x0 (ix2 (nodeOf 20000 (by decide) (x1 (ix2 (0 : Fin 2) e))) k) := by
  unfold val_main_v10 val_main_v9
  rw [gather_is_rows, take_rows_apply, pos0_apply x1 hnn]

/-- The second gathered table at (e, k): the node table's row of the node (1, e) names. -/
theorem rows1_apply (hnn : ∀ i, 0 ≤ (x1 i).toInt) (e : Fin 640000) (k : Fin 256) :
    val_main_v18 (F := Ideal) x0 x1 (ix2 e k) = x0 (ix2 (nodeOf 20000 (by decide) (x1 (ix2 (1 : Fin 2) e))) k) := by
  unfold val_main_v18 val_main_v17
  rw [gather_is_rows, take_rows_apply, pos1_apply x1 hnn]

/-- THE REFERENCE'S RESULT, where every position is nonnegative, is the layer's function of the arguments. -/
theorem result_eq (x2 : (⟨S640000x128, .f32⟩ : BufTy).Contents (Elt Ideal)) (x3 : (⟨S128x256, .f32⟩ : BufTy).Contents (Elt Ideal))
    (x4 : (⟨S256, .f32⟩ : BufTy).Contents (Elt Ideal)) (x5 x6 : (⟨S256x256, .f32⟩ : BufTy).Contents (Elt Ideal))
    (hnn : ∀ i, 0 ≤ (x1 i).toInt) :
    val_main_v26 (F := Ideal) x0 x1 x2 x3 x4 x5 x6 = pairFeat x0 x1 x2 x3 x4 x5 x6 := by
  funext i
  obtain ⟨e, o, rfl⟩ : ∃ (e : Fin 640000) (o : Fin 256), i = ix2 e o := ⟨i 0, i 1, eq_ix2 i⟩
  have l20 : ∀ k : Fin 128, lidx_main_v20 (ix2 e o) k = ix2 e k := fun k => funext fun a => Fin.ext (by
    match a with | ⟨0, _⟩ => rfl | ⟨1, _⟩ => rfl)
  have r20 : ∀ k : Fin 128, ridx_main_v20 (ix2 e o) k = ix2 k o := fun k => funext fun a => Fin.ext (by
    match a with | ⟨0, _⟩ => rfl | ⟨1, _⟩ => rfl)
  have l11 : ∀ k : Fin 256, lidx_main_v11 (ix2 e o) k = ix2 e k := fun k => funext fun a => Fin.ext (by
    match a with | ⟨0, _⟩ => rfl | ⟨1, _⟩ => rfl)
  have r11 : ∀ k : Fin 256, ridx_main_v11 (ix2 e o) k = ix2 k o := fun k => funext fun a => Fin.ext (by
    match a with | ⟨0, _⟩ => rfl | ⟨1, _⟩ => rfl)
  have l19 : ∀ k : Fin 256, lidx_main_v19 (ix2 e o) k = ix2 e k := fun k => funext fun a => Fin.ext (by
    match a with | ⟨0, _⟩ => rfl | ⟨1, _⟩ => rfl)
  have r19 : ∀ k : Fin 256, ridx_main_v19 (ix2 e o) k = ix2 k o := fun k => funext fun a => Fin.ext (by
    match a with | ⟨0, _⟩ => rfl | ⟨1, _⟩ => rfl)
  have b21 : idx_main_v21 (idx_main_v22 (ix2 e o)) = ix1 o := funext fun a => Fin.ext (by
    match a with | ⟨0, _⟩ => rfl)
  rw [val_main_v26_apply, val_main_v25_apply, val_main_v24_apply, val_main_v23_apply, val_main_v20_apply,
    val_main_v22_apply, val_main_v21_apply, val_main_v11_apply, val_main_v19_apply, val_main_call0_v0_apply,
    val_main_call0_cst_apply]
  simp only [l20, r20, l11, r11, l19, r19, b21, rows0_apply x0 x1 hnn, rows1_apply x0 x1 hnn,
    Ideal.maximumf_def, Ideal.addf_def, Ideal.ofBits_def]
  show max (((∑ k : Fin 128, x2 (ix2 e k) * x3 (ix2 k o)) + x4 (ix1 o))
        + (∑ k : Fin 256, x0 (ix2 (nodeOf 20000 (by decide) (x1 (ix2 (0 : Fin 2) e))) k) * x5 (ix2 k o))
        + ∑ k : Fin 256, x0 (ix2 (nodeOf 20000 (by decide) (x1 (ix2 (1 : Fin 2) e))) k) * x6 (ix2 k o))
      (Ideal.ofBits .f32 0x00000000#32)
    = max (((∑ k : Fin 128, x2 (ix2 e k) * x3 (ix2 k o)) + x4 (ix1 o))
        + ((∑ k : Fin 256, x0 (ix2 (nodeOf 20000 (by decide) (x1 (ix2 (0 : Fin 2) e))) k) * x5 (ix2 k o))
          + ∑ k : Fin 256, x0 (ix2 (nodeOf 20000 (by decide) (x1 (ix2 (1 : Fin 2) e))) k) * x6 (ix2 k o)))
      (Ideal.ofBits .f32 0x00000000#32)
  rw [add_assoc]

end Cert.ReferenceIdeal.RefValue

end
-- ==== Proof.PreDecode.lean ====
/-
  The precondition read back.  Its last conjunct says that every entry of the index table, read as a signed
  32-bit integer, is nonnegative: a node id is never negative.
-/
import proofs.«428744_j63496796504636_3_alg».proof.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

variable [Cert.Pre_finite_inputs.Facts]

instance : Subsingleton S_.Idx := ⟨fun a b => funext fun d => d.elim0⟩

/-- Under the precondition every entry of the index table is nonnegative as a signed integer. -/
theorem idx_nonneg (x0 : FVec Ideal S20000x256 .f32) (x1 : IVec S2x640000 32) (x2 : FVec Ideal S640000x128 .f32)
    (x3 : FVec Ideal S128x256 .f32) (x4 : FVec Ideal S256 .f32) (x5 x6 : FVec Ideal S256x256 .f32)
    (h : fn (F := Ideal) x0 x1 x2 x3 x4 x5 x6 = fun _ => 1#1) (i : S2x640000.Idx) : 0 ≤ (x1 i).toInt := by
  have h0 := congrFun h ValueIdx.ix0
  dsimp only [fn, fn_part1] at h0
  obtain ⟨-, h1⟩ := IntOp.andi_eq_one.1 h0
  have h2 := Host.reduce_andi_all _ _ _ _ _ h1 i
  exact IntOp.cmpi_sge.1 h2

end Cert.PreDecode

end
-- ==== Proof.lean ====
/-
  The pair-features layer of a graph network: for every edge e = (i_e, j_e) and output feature o

      out[e, o] = relu( edge_attr[e,:]·W_ij[:,o] + b[o] + (node_feats[i_e,:]·W_i)[o] + (node_feats[j_e,:]·W_j)[o] ).

  The kernel projects the node table once by W_i and by W_j (first region), gathers the rows of the two products the
  index table names and adds them, and in its second region adds that sum to edge_attr·W_ij + b and applies relu.  The
  reference gathers rows of the node table first and projects the gathered rows.  Over the extended reals every
  change of float format is the identity, a row of a matrix product depends on that row of the left factor only, and
  + is associative, so both are the one function `Cert.PairFeat.pairFeat` of the seven arguments (Proof/Spec.lean) —
  where every entry of the index table is a nonnegative node id, which the precondition states: the reference reads a
  negative entry from the table's end while the kernel's gather clamps it to row 0.

  The frames of the two printed kernels are the generated ones; the reference's frame is its generated run with the
  result dropped; the ideal pass rewrote nothing, so the idealization conjunct is trivial; the algebraic conjunct
  pairs the kernel's run with its result array named (Proof/KernelRun.lean, Proof/KernelValue.lean) with the
  reference's generated run read at an entry (Proof/RefSide.lean).
-/
import proofs.«428744_j63496796504636_3_alg».proof.Defs
import proofs.«428744_j63496796504636_3_alg».proof.Proof.Gen.Kernel
import proofs.«428744_j63496796504636_3_alg».proof.Proof.Gen.Kernel.Skeleton
import proofs.«428744_j63496796504636_3_alg».proof.Proof.Gen.Kernel.Launch
import proofs.«428744_j63496796504636_3_alg».proof.Proof.Gen.Kernel.Points
import proofs.«428744_j63496796504636_3_alg».proof.Proof.Gen.Kernel.Frame
import proofs.«428744_j63496796504636_3_alg».proof.Proof.Gen.KernelIdeal
import proofs.«428744_j63496796504636_3_alg».proof.Proof.Gen.KernelIdeal.Skeleton
import proofs.«428744_j63496796504636_3_alg».proof.Proof.Gen.KernelIdeal.Launch
import proofs.«428744_j63496796504636_3_alg».proof.Proof.Gen.KernelIdeal.Points
import proofs.«428744_j63496796504636_3_alg».proof.Proof.Gen.KernelIdeal.Frame
import proofs.«428744_j63496796504636_3_alg».proof.Proof.Gen.ReferenceIdeal
import proofs.«428744_j63496796504636_3_alg».proof.Proof.Gen.ReferenceIdeal.Run
import proofs.«428744_j63496796504636_3_alg».proof.Proof.Gen.ReferenceIdeal.Read
import proofs.«428744_j63496796504636_3_alg».proof.Proof.Gen.Pre_finite_inputs
import proofs.«428744_j63496796504636_3_alg».proof.Proof.KernelRun
import proofs.«428744_j63496796504636_3_alg».proof.Proof.KernelValue
import proofs.«428744_j63496796504636_3_alg».proof.Proof.RefSide
import proofs.«428744_j63496796504636_3_alg».proof.Proof.PreDecode
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both runs end with the layer's function of the (agreeing) arguments in their result arrays: the kernel's by
    its two regions and the gathers between them, the reference's by its run read at an entry; the precondition's
    last conjunct makes every node id nonnegative, where the two ways of reading a row agree. -/
theorem algebraic : Cert.algebraic_KernelIdeal_ReferenceIdeal := by
  intro m ρ m' ρ' hpre hagree
  refine ⟨fun c => Cert.PairFeat.pairFeat (Cert.KernelIdeal.KernelValue.aNf m c) (Cert.KernelIdeal.KernelValue.aEi m c)
      (Cert.KernelIdeal.KernelValue.aEa m c) (Cert.KernelIdeal.KernelValue.aWij m c) (Cert.KernelIdeal.KernelValue.aB m c)
      (Cert.KernelIdeal.KernelValue.aWi m c) (Cert.KernelIdeal.KernelValue.aWj m c), ?_, ?_⟩
  · exact (θ_run Cert.KernelIdeal.defs _ _).mono
      (fun r h c => ⟨(h c).1.trans (Cert.KernelIdeal.KernelValue.result_eq m ρ c), (h c).2⟩)
      (Cert.KernelIdeal.GenRun.run (F := Ideal) m ρ)
  · refine (θ_run Cert.ReferenceIdeal.defs _ _).mono (fun r h c => ⟨(h c).1.trans ?_, (h c).2⟩)
      (Cert.ReferenceIdeal.Value.run (F := Ideal) m' ρ')
    have hnn : ∀ i, 0 ≤ ((m' ((c.tc : Thread Cert.ReferenceIdeal.nD Cert.ReferenceIdeal.τ).loc Cert.ReferenceIdeal.main_arg1)) i).toInt := by
      rw [(hagree c).2.1]
      exact Cert.PreDecode.idx_nonneg _ _ _ _ _ _ _ (hpre c)
    rw [Cert.ReferenceIdeal.Read.val_main_v26_eq, Cert.ReferenceIdeal.RefValue.result_eq _ _ _ _ _ _ _ hnn,
      (hagree c).1, (hagree c).2.1, (hagree c).2.2.1, (hagree c).2.2.2.1, (hagree c).2.2.2.2.1, (hagree c).2.2.2.2.2.1,
      (hagree c).2.2.2.2.2.2]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
